-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S100000x128 : Shape := ⟨2, ![100000, 128]⟩
abbrev S1000000x128 : Shape := ⟨2, ![1000000, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1000000x128 : S_.BroadcastsInDim S1000000x128 (![] : Fin 0 → Fin S1000000x128.rank)
  reducesTo_S1000000x128_S_d0_1 : S1000000x128.ReducesTo [0, 1] S_
  bcast_S_S1000000 : S_.BroadcastsInDim S1000000 (![] : Fin 0 → Fin S1000000.rank)
  reducesTo_S1000000_S_d0 : S1000000.ReducesTo [0] S_

variable [Facts]

def fn {F : FTy → Type} [FloatOps F] (main_arg0 : IVec S1000000 32) (main_arg1 : FVec F S100000x128 .f32) (main_arg2 : FVec F S1000000x128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1000000x128 .f32 := Host.absf main_arg2
  let main_cst_0 : FVec F S_ .f32 := constant S_ .f32 0x7F800000#32
  let main_v5 : FVec F S1000000x128 .f32 := broadcastInDim S1000000x128 ![] bcast_S_S1000000x128 main_cst_0
  let main_v6 : IVec S1000000x128 1 := cmpf .olt main_v4 main_v5
  let main_c_1 : IVec S_ 1 := constantI S_ 1 1#1
  let main_v7 : IVec S_ 1 := (fun x v => Host.reduce IntOp.andi x v reducesTo_S1000000x128_S_d0_1 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg0 main_v9
  let main_c_3 : IVec S_ 1 := constantI S_ 1 1#1
  let main_v11 : IVec S_ 1 := (fun x v => Host.reduce IntOp.andi x v reducesTo_S1000000_S_d0 h_S_) main_v10 main_c_3
  let main_v12 : IVec S_ 1 := andi main_v8 main_v11
  main_v12
-- ==== Kernel.lean ====
abbrev S1000000 : Shape := ⟨1, ![1000000]⟩
abbrev S100000x128 : Shape := ⟨2, ![100000, 128]⟩
abbrev S1000000x128 : Shape := ⟨2, ![1000000, 128]⟩
abbrev S_ : Shape := ⟨0, ![]⟩
abbrev S1001472 : Shape := ⟨1, ![1001472]⟩
abbrev S1001472x128 : Shape := ⟨2, ![1001472, 128]⟩
abbrev S2048 : Shape := ⟨1, ![2048]⟩
abbrev S2000x128 : Shape := ⟨2, ![2000, 128]⟩
abbrev S2048x128 : Shape := ⟨2, ![2048, 128]⟩
abbrev S2000x1 : Shape := ⟨2, ![2000, 1]⟩
abbrev S1x2048 : Shape := ⟨2, ![1, 2048]⟩
abbrev S2000x2048 : Shape := ⟨2, ![2000, 2048]⟩

abbrev nBuf : Space → Nat
  | .hbm => 10
  | .vmem => 9
  | .smem => 0
  | _ => 0

abbrev bufTy : (tb : Table) → Fin (tcTables nBuf tb) → BufTy
  | .hbm, ⟨0, _⟩ => ⟨S1000000, .i32⟩
  | .hbm, ⟨1, _⟩ => ⟨S100000x128, .f32⟩
  | .hbm, ⟨2, _⟩ => ⟨S1000000x128, .f32⟩
  | .hbm, ⟨3, _⟩ => ⟨S_, .i32⟩
  | .hbm, ⟨4, _⟩ => ⟨S_, .i32⟩
  | .hbm, ⟨5, _⟩ => ⟨S1001472, .i32⟩
  | .hbm, ⟨6, _⟩ => ⟨S_, .f32⟩
  | .hbm, ⟨7, _⟩ => ⟨S_, .f32⟩
  | .hbm, ⟨8, _⟩ => ⟨S1001472x128, .f32⟩
  | .hbm, ⟨9, _⟩ => ⟨S100000x128, .f32⟩
  | .local _ .vmem, ⟨0, _⟩ => ⟨S2048, .i32⟩
  | .local _ .vmem, ⟨1, _⟩ => ⟨S2048, .i32⟩
  | .local _ .vmem, ⟨2, _⟩ => ⟨S2000x128, .f32⟩
  | .local _ .vmem, ⟨3, _⟩ => ⟨S2000x128, .f32⟩
  | .local _ .vmem, ⟨4, _⟩ => ⟨S2048x128, .f32⟩
  | .local _ .vmem, ⟨5, _⟩ => ⟨S2048x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | _, _ => ⟨S1000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![50, 489], ![false, false]⟩

def k0_cond2 (i : grid0.Coords) : BitVec 1 :=
  let arg1 : BitVec 32 := BitVec.ofNat 32 (i 1).val
  let c488_i32 : BitVec 32 := 488#32
  let v25 : BitVec 1 := Scalar.cmpi .eq arg1 c488_i32
  let v26 : BitVec 32 := Scalar.extui v25
  let c0_i32_7 : BitVec 32 := 0#32
  let v27 : BitVec 1 := Scalar.cmpi .ne v26 c0_i32_7
  v27

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S1000000_S1001472_014720 : S1000000.Pads (![0] : Fin 1 → Nat) ![1472] ![0] S1001472
  h_S_ : 0 < S_.numel
  pads_S1000000x128_S1001472x128_014720_000 : S1000000x128.Pads (![0, 0] : Fin 2 → Nat) ![1472, 0] ![0, 0] S1001472x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  iota_S2000x1_d0_w32 : S2000x1.Iotas .tc 32 [0]
  inb_S2048_S2048_0 : ∀ a, (![0] : Fin 1 → Nat) a + S2048.size a ≤ S2048.size a
  h_S2048 : 0 < S2048.numel
  shapeCasts_S2048_S2048 : S2048.ShapeCasts S2048
  shapeCasts_S2048_S1x2048 : S2048.ShapeCasts S1x2048
  broadcasts_S2000x1_S2000x2048 : S2000x1.Broadcasts S2000x2048
  broadcasts_S1x2048_S2000x2048 : S1x2048.Broadcasts S2000x2048
  natLt_1_32 : 1 < 32
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  dot_S2000x2048_S2048x128_S2000x128_1_0_0_1_n_n_wf : DotDims.WF S2000x2048 S2048x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048.size a ≤ S1001472.size a
  hwx0_0 : ∀ i : grid0.Coords, EltTy.bits .i32 = 32 ∨ (Rect.block (s := S1001472) S2048.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S1001472x128.size a
  hwx0_2 : ∀ i : grid0.Coords, EltTy.bits .f32 = 32 ∨ (Rect.block (s := S1001472x128) S2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)

variable [Facts₀]

def dot_S2000x2048_S2048x128_S2000x128_1_0_0_1_n_n : DotDims S2000x2048 S2048x128 S2000x128 where
  lhsContracting := [1]
  rhsContracting := [0]
  lhsNonContracting := [0]
  rhsNonContracting := [1]
  lhsBatch := []
  rhsBatch := []
  wf := dot_S2000x2048_S2048x128_S2000x128_1_0_0_1_n_n_wf

abbrev win0_0 : Pipeline.Window sig grid0 :=
  Pipeline.Window.ofSpec (Memref.whole main_v0) S2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1000000 : Shape := ⟨1, ![1000000]⟩
abbrev S100000x128 : Shape := ⟨2, ![100000, 128]⟩
abbrev S1000000x128 : Shape := ⟨2, ![1000000, 128]⟩
abbrev S_ : Shape := ⟨0, ![]⟩
abbrev S1000000x1 : Shape := ⟨2, ![1000000, 1]⟩

abbrev nBuf : Space → Nat
  | .hbm => 12
  | .vmem => 0
  | .smem => 0
  | _ => 0

abbrev bufTy : (tb : Table) → Fin (tcTables nBuf tb) → BufTy
  | .hbm, ⟨0, _⟩ => ⟨S1000000, .i32⟩
  | .hbm, ⟨1, _⟩ => ⟨S100000x128, .f32⟩
  | .hbm, ⟨2, _⟩ => ⟨S1000000x128, .f32⟩
  | .hbm, ⟨3, _⟩ => ⟨S_, .i32⟩
  | .hbm, ⟨4, _⟩ => ⟨S1000000, .i32⟩
  | .hbm, ⟨5, _⟩ => ⟨S1000000, .i1⟩
  | .hbm, ⟨6, _⟩ => ⟨S_, .i32⟩
  | .hbm, ⟨7, _⟩ => ⟨S1000000, .i32⟩
  | .hbm, ⟨8, _⟩ => ⟨S1000000, .i32⟩
  | .hbm, ⟨9, _⟩ => ⟨S1000000, .i32⟩
  | .hbm, ⟨10, _⟩ => ⟨S1000000x1, .i32⟩
  | .hbm, ⟨11, _⟩ => ⟨S100000x128, .f32⟩
  | _, _ => ⟨S1000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  scatter_S100000x128_S1000000x1_S1000000x128_1_0_0_1_wf : ScatterDims.WF S100000x128 S1000000x1 S1000000x128 [1] [0] [0] 1

variable [Facts₀]

def scatter_S100000x128_S1000000x1_S1000000x128_1_0_0_1 : ScatterDims S100000x128 S1000000x1 S1000000x128 where
  updateWindowDims := [1]
  insertedWindowDims := [0]
  scatterDimsToOperandDims := [0]
  indexVectorDim := 1
  wf := scatter_S100000x128_S1000000x1_S1000000x128_1_0_0_1_wf

class Facts : Prop extends Facts₀ where

variable [Facts]
-- ==== Proof.KernelPieces.lean ====
/-
  What each control case of the body leaves in the accumulator and in the output block.

  First point of a row block: the accumulator is set to the table's block, then the routed update block is added. Later
  points: the routed update block is added to what the point before left. Last point: the same, and the output block is
  stored from the accumulator just written.
-/
import proofs.«411874_j15642270892742_1_alg».proof.Proof.Gen.KernelIdeal.Frame
import Idealize.ShloMosaic.Lib.Pipeline.Value
import Idealize.ShloMosaic.Lib.Tactic

noncomputable section

namespace Cert.ScatterAdd.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- A later point's accumulator: the step over what the point before left. -/
theorem acc_B (c : Dev nD) (i : grid0.Coords) (arg2 : Memref sig .tc .vmem S2048 .i32) (harg2 : arg2.IsWhole)
    (arg3 : Memref sig .tc .vmem S2000x128 .f32) (harg3 : arg3.IsWhole) (arg4 : Memref sig .tc .vmem S2048x128 .f32)
    (harg4 : arg4.IsWhole) (arg5 : Memref sig .tc .vmem S2000x128 .f32) (harg5 : arg5.IsWhole)
    (arg6 : Memref sig .tc .vmem S2000x128 .f32) (harg6 : arg6.IsWhole) (hc0 : ¬cond0_0 i) (hc1 : ¬cond0_1 i)
    (x0 : Vec F S2048 .i32) (x1 : Vec F S2000x128 .f32) (x2 : Vec F S2048x128 .f32) (xs0 : Vec F S2000x128 .f32) :
    sout0_B_0 c i arg2 harg2 arg3 harg3 arg4 harg4 arg5 harg5 arg6 harg6 hc0 hc1 x0 x1 x2 xs0 = k0_pay2 i x0 x2 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  simp only [View.readAt_eq_ld, harg2.read_unread, harg4.read_unread, harg6.read_unread,
    View.ld_unit_zero (S := S2000x128) hz, View.ld_unit_zero (S := S2048x128) hz, View.ld_unit_zero (S := S2048) hz1]

/-- The last point's accumulator: the same step. -/
theorem acc_C (c : Dev nD) (i : grid0.Coords) (arg2 : Memref sig .tc .vmem S2048 .i32) (harg2 : arg2.IsWhole)
    (arg3 : Memref sig .tc .vmem S2000x128 .f32) (harg3 : arg3.IsWhole) (arg4 : Memref sig .tc .vmem S2048x128 .f32)
    (harg4 : arg4.IsWhole) (arg5 : Memref sig .tc .vmem S2000x128 .f32) (harg5 : arg5.IsWhole)
    (arg6 : Memref sig .tc .vmem S2000x128 .f32) (harg6 : arg6.IsWhole) (hc0 : ¬cond0_0 i) (hc1 : cond0_1 i)
    (x0 : Vec F S2048 .i32) (x1 : Vec F S2000x128 .f32) (x2 : Vec F S2048x128 .f32) (xs0 : Vec F S2000x128 .f32) :
    sout0_C_0 c i arg2 harg2 arg3 harg3 arg4 harg4 arg5 harg5 arg6 harg6 hc0 hc1 x0 x1 x2 xs0 = k0_pay2 i x0 x2 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg4.read_unread, harg6.read_unread,
    View.ld_unit_zero (S := S2000x128) hz, View.ld_unit_zero (S := S2048x128) hz, View.ld_unit_zero (S := S2048) hz1]

/-- The last point's output block: the accumulator it has just written. -/
theorem out_C (c : Dev nD) (i : grid0.Coords) (arg2 : Memref sig .tc .vmem S2048 .i32) (harg2 : arg2.IsWhole)
    (arg3 : Memref sig .tc .vmem S2000x128 .f32) (harg3 : arg3.IsWhole) (arg4 : Memref sig .tc .vmem S2048x128 .f32)
    (harg4 : arg4.IsWhole) (arg5 : Memref sig .tc .vmem S2000x128 .f32) (harg5 : arg5.IsWhole)
    (arg6 : Memref sig .tc .vmem S2000x128 .f32) (harg6 : arg6.IsWhole) (hc0 : ¬cond0_0 i) (hc1 : cond0_1 i)
    (x0 : Vec F S2048 .i32) (x1 : Vec F S2000x128 .f32) (x2 : Vec F S2048x128 .f32) (xs0 : Vec F S2000x128 .f32) :
    out0_C_3 c i arg2 harg2 arg3 harg3 arg4 harg4 arg5 harg5 arg6 harg6 hc0 hc1 x0 x1 x2 xs0 = k0_pay2 i x0 x2 xs0 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  simp only [View.readAt_eq_ld, harg2.read_unread, harg4.read_unread, harg6.read_unread,
    View.ld_unit_zero (S := S2000x128) hz, View.ld_unit_zero (S := S2048x128) hz, View.ld_unit_zero (S := S2048) hz1,
    View.readCov_unit_zero (S := S2000x128) _ hz]

/-- The first point's accumulator: the table's block, then the step. -/
theorem acc_A (c : Dev nD) (i : grid0.Coords) (arg2 : Memref sig .tc .vmem S2048 .i32) (harg2 : arg2.IsWhole)
    (arg3 : Memref sig .tc .vmem S2000x128 .f32) (harg3 : arg3.IsWhole) (arg4 : Memref sig .tc .vmem S2048x128 .f32)
    (harg4 : arg4.IsWhole) (arg5 : Memref sig .tc .vmem S2000x128 .f32) (harg5 : arg5.IsWhole)
    (arg6 : Memref sig .tc .vmem S2000x128 .f32) (harg6 : arg6.IsWhole) (hc0 : cond0_0 i) (hc1 : ¬cond0_1 i)
    (x0 : Vec F S2048 .i32) (x1 : Vec F S2000x128 .f32) (x2 : Vec F S2048x128 .f32) :
    sout0_A_0 c i arg2 harg2 arg3 harg3 arg4 harg4 arg5 harg5 arg6 harg6 hc0 hc1 x0 x1 x2 = k0_pay2 i x0 x2 (k0_pay1 x1) := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S2000x128) hz, View.readCov_unit_zero (S := S2000x128) _ hz]
  simp only [View.readAt_eq_ld, harg2.read_unread, harg3.read_unread, harg4.read_unread, harg6.read_unread,
    View.ld_unit_zero (S := S2000x128) hz, View.ld_unit_zero (S := S2048x128) hz, View.ld_unit_zero (S := S2048) hz1]

/-! ## The same, at the points of the grid -/

variable (m : (ℓ : Loc nD τ sig) → Buf (Elt F) ℓ)

theorem accAt_A (c : Dev nD) (t : Fin cfg0.N) (h0 : t.val % 489 = 0) (h1 : ¬t.val % 489 = 488) :
    (outsAt0 m c t.val t.isLt).2
      = k0_pay2 (grid0.coords t) (iblk m c 0 t) (iblk m c 2 t) (k0_pay1 (iblk m c 1 t)) := by
  rw [outsAt0_A m c t h0 h1]
  dsimp only
  exact acc_A (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)

theorem accAt_B (c : Dev nD) (t : Fin cfg0.N) (h0 : ¬t.val % 489 = 0) (h1 : ¬t.val % 489 = 488) :
    (outsAt0 m c t.val t.isLt).2
      = k0_pay2 (grid0.coords t) (iblk m c 0 t) (iblk m c 2 t)
          (outsAt0 m c (t.val - 1) (Nat.lt_of_le_of_lt (Nat.sub_le _ _) t.isLt)).2 := by
  rw [outsAt0_B m c t h0 h1]
  dsimp only
  exact acc_B (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2

theorem accAt_C (c : Dev nD) (t : Fin cfg0.N) (h0 : ¬t.val % 489 = 0) (h1 : t.val % 489 = 488) :
    (outsAt0 m c t.val t.isLt).2
      = k0_pay2 (grid0.coords t) (iblk m c 0 t) (iblk m c 2 t)
          (outsAt0 m c (t.val - 1) (Nat.lt_of_le_of_lt (Nat.sub_le _ _) t.isLt)).2 := by
  rw [outsAt0_C m c t h0 h1]
  dsimp only
  exact acc_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2

/-- At a last point the output block is the accumulator of that point. -/
theorem outAt_C (c : Dev nD) (t : Fin cfg0.N) (h0 : ¬t.val % 489 = 0) (h1 : t.val % 489 = 488) :
    (outsAt0 m c t.val t.isLt).1 = (outsAt0 m c t.val t.isLt).2 := by
  rw [outsAt0_C m c t h0 h1]
  dsimp only
  exact (out_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).trans
    (acc_C (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2).symm

end Cert.ScatterAdd.Pieces

end
-- ==== Proof.KernelGrid.lean ====
/-
  The grid, point by point: which blocks the index maps name.

  Grid point t is row block t / 489 and update block t mod 489 (the update axis runs fastest). The index vector's and the
  updates' windows follow the update block; the table's and the output's windows follow the row block.
-/
import proofs.«411874_j15642270892742_1_alg».proof.Proof.Gen.KernelIdeal
import Idealize.ShloMosaic.Lib.Pipeline.Kit

noncomputable section

namespace Cert.ScatterAdd.Blocks

open Idealize.ShloMosaic Idealize.ShloMosaic.TcCoe Idealize.SL.Sem
open Cert.KernelIdeal Cert.KernelIdeal.Gen

/-- The printed index maps and the row-block coordinate, decided over the grid. -/
theorem idx_facts : ∀ t : Fin cfg0.N,
    win0_0.index t (0 : Fin 1) = t.val % 489
    ∧ win0_1.index t (0 : Fin 2) = t.val / 489 ∧ win0_1.index t (1 : Fin 2) = 0
    ∧ win0_2.index t (0 : Fin 2) = t.val % 489 ∧ win0_2.index t (1 : Fin 2) = 0
    ∧ win0_3.index t (0 : Fin 2) = t.val / 489 ∧ win0_3.index t (1 : Fin 2) = 0
    ∧ ((grid0.coords t) 0).val = t.val / 489 :=
  (by decide +kernel : ∀ t : Fin grid0.N, _)

end Cert.ScatterAdd.Blocks

end
-- ==== Proof.KernelBlocks.lean ====
/-
  The blocks the body reads, as entries of the arrays the region finds.

  Grid point t is row block n = t / 489 and update block j = t mod 489 (the update axis runs fastest). The index
  block at t is rows j·2048 … j·2048 + 2047 of the padded index vector, the update block the same rows of the padded
  updates, the table block rows n·2000 … n·2000 + 1999 of the table. The padded arrays are the arguments followed by
  1472 rows of padding: index word 0, update entries 0.
-/
import proofs.«411874_j15642270892742_1_alg».proof.Proof.Gen.KernelIdeal.Frame.Runs
import proofs.«411874_j15642270892742_1_alg».proof.Proof.KernelGrid
import Idealize.ShloMosaic.Lib.Pipeline.Value
import Idealize.ShloMosaic.Lib.KernelVsHost
import Idealize.ShloMosaic.Lib.StableHlo.Run
import Idealize.ShloMosaic.Lib.ValueIdx

noncomputable section

namespace Cert.ScatterAdd.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The three input blocks at a point and the three arrays they are cut from, at their literal types. -/
abbrev idxBlk (c : Dev nD) (t : Fin cfg0.N) : Vec F S2048 .i32 := iblk m c 0 t
abbrev tabBlk (c : Dev nD) (t : Fin cfg0.N) : Vec F S2000x128 .f32 := iblk m c 1 t
abbrev updBlk (c : Dev nD) (t : Fin cfg0.N) : Vec F S2048x128 .f32 := iblk m c 2 t
abbrev idxArr (c : Dev nD) : Vec F S1001472 .i32 := V m c main_v0
abbrev tabArr (c : Dev nD) : Vec F S100000x128 .f32 := V m c main_arg1
abbrev updArr (c : Dev nD) : Vec F S1001472x128 .f32 := V m c main_v1

theorem idxBlk_apply (c : Dev nD) (t : Fin cfg0.N) (k : Fin 2048) (h : t.val % 489 * 2048 + k.val < 1001472) :
    idxBlk m c t (ix1 k) = idxArr m c (ix1 ⟨t.val % 489 * 2048 + k.val, h⟩) := by
  obtain ⟨e0, -⟩ := idx_facts t
  show V m c main_v0 (((cfg0.win 0).blk t).view.emb (ix1 k)) = _
  refine congrArg (V m c main_v0) (funext fun a => Fin.ext ?_)
  match a with
  | ⟨0, _⟩ =>
    show win0_0.index t (0 : Fin 1) * 2048 + 1 * k.val = t.val % 489 * 2048 + k.val
    rw [e0]; omega

theorem updBlk_apply (c : Dev nD) (t : Fin cfg0.N) (k : Fin 2048) (q : Fin 128) (h : t.val % 489 * 2048 + k.val < 1001472) :
    updBlk m c t (ix2 k q) = updArr m c (ix2 ⟨t.val % 489 * 2048 + k.val, h⟩ q) := by
  obtain ⟨-, -, -, e0, e1, -⟩ := idx_facts t
  show V m c main_v1 (((cfg0.win 2).blk t).view.emb (ix2 k q)) = _
  refine congrArg (V m c main_v1) (funext fun a => Fin.ext ?_)
  match a with
  | ⟨0, _⟩ =>
    show win0_2.index t (0 : Fin 2) * 2048 + 1 * k.val = t.val % 489 * 2048 + k.val
    rw [e0]; omega
  | ⟨1, _⟩ =>
    show win0_2.index t (1 : Fin 2) * 128 + 1 * q.val = q.val
    rw [e1]; omega

theorem tabBlk_apply (c : Dev nD) (t : Fin cfg0.N) (p : Fin 2000) (q : Fin 128) (h : t.val / 489 * 2000 + p.val < 100000) :
    tabBlk m c t (ix2 p q) = tabArr m c (ix2 ⟨t.val / 489 * 2000 + p.val, h⟩ q) := by
  obtain ⟨-, e0, e1, -⟩ := idx_facts t
  show V m c main_arg1 (((cfg0.win 1).blk t).view.emb (ix2 p q)) = _
  refine congrArg (V m c main_arg1) (funext fun a => Fin.ext ?_)
  match a with
  | ⟨0, _⟩ =>
    show win0_1.index t (0 : Fin 2) * 2000 + 1 * p.val = t.val / 489 * 2000 + p.val
    rw [e0]; omega
  | ⟨1, _⟩ =>
    show win0_1.index t (1 : Fin 2) * 128 + 1 * q.val = q.val
    rw [e1]; omega

/-! ## The padded arrays the host operations before the region build -/

/-- The padded index vector is the host's pad of the index argument with the word 0. -/
theorem idxArr_eq (c : Dev nD) :
    idxArr m c = pad S1001472 ![0] ![1472] ![0] (m ((c : Thread nD τ).loc main_arg0)) (constantI S_ 32 0#32)
      Facts₀.pads_S1000000_S1001472_014720 Facts₀.h_S_ := by
  show V m c main_v0 = _
  dsimp only [Gen.V]
  simp only [Gen.hostOps0, Gen.hostOps0_1, Gen.hostOps0_2, Gen.hostOps0_3, List.flatten_cons, List.flatten_nil,
    List.append_nil, List.cons_append, List.nil_append]
  after_results
  rfl

/-- The padded updates are the host's pad of the update argument with the float 0. -/
theorem updArr_eq (c : Dev nD) :
    updArr m c = pad S1001472x128 ![0, 0] ![1472, 0] ![0, 0] (m ((c : Thread nD τ).loc main_arg2))
      (constant (F := F) S_ .f32 0x00000000#32) Facts₀.pads_S1000000x128_S1001472x128_014720_000 Facts₀.h_S_ := by
  show V m c main_v1 = _
  dsimp only [Gen.V]
  simp only [Gen.hostOps0, Gen.hostOps0_1, Gen.hostOps0_2, Gen.hostOps0_3, List.flatten_cons, List.flatten_nil,
    List.append_nil, List.cons_append, List.nil_append]
  after_results
  rfl

/-- The table is the table argument. -/
theorem tabArr_eq (c : Dev nD) : tabArr m c = m ((c : Thread nD τ).loc main_arg1) := V_main_arg1 m c

/-- Below row 1000000 the padded index vector is the argument. -/
theorem idxArr_inside (c : Dev nD) (e : ℕ) (h : e < 1000000) :
    idxArr m c (ix1 ⟨e, by omega⟩) = m ((c : Thread nD τ).loc main_arg0) (ix1 ⟨e, h⟩) := by
  rw [idxArr_eq]
  exact pad_apply_of_inside _ _ _ _ _ _ _ _ (ix1 ⟨e, h⟩) (fun a => match a with
    | ⟨0, _⟩ => by show e = 0 + e * (0 + 1); omega)

/-- Below row 1000000 the padded updates are the argument. -/
theorem updArr_inside (c : Dev nD) (e : ℕ) (h : e < 1000000) (q : Fin 128) :
    updArr m c (ix2 ⟨e, by omega⟩ q) = m ((c : Thread nD τ).loc main_arg2) (ix2 ⟨e, h⟩ q) := by
  rw [updArr_eq]
  exact pad_apply_of_inside _ _ _ _ _ _ _ _ (ix2 ⟨e, h⟩ q) (fun a => match a with
    | ⟨0, _⟩ => by show e = 0 + e * (0 + 1); omega
    | ⟨1, _⟩ => by show q.val = 0 + q.val * (0 + 1); omega)

end Cert.ScatterAdd.Blocks

end
-- ==== Proof.OneHot.lean ====
/-
  The routing matrix's entries, word by word.

  The kernel compares the row number of an output row — the row's number inside its block plus the block's first row,
  computed in 32-bit words — with each index word, widens the one-bit answer to a word and converts it to a float: 1
  where they are equal, 0 where they are not. No row number of the table reaches 2^31, so the row number's word is the
  word of the number itself, and an index word read as a signed integer is that number exactly when it is that word.
-/
import Idealize.ShloMosaic.PureOps.Ideal
import Idealize.ShloMosaic.Lib.ValueIdx
import Idealize.ShloMosaic.Lib.Pipeline.Value

noncomputable section

open scoped BigOperators

namespace Cert.ScatterAdd

open Idealize.ShloMosaic Idealize.ShloMosaic.ValueIdx

/-- The word of row `p` of block `n` (blocks of 2000 rows): the kernel's sum of words is the word of the row number. -/
theorem rowWord (n p : ℕ) :
    IntOp.addi (BitVec.ofNat 32 p) (Scalar.muli (BitVec.ofNat 32 n) 2000#32) = BitVec.ofNat 32 (n * 2000 + p) := by
  show BitVec.ofNat 32 p + BitVec.ofNat 32 n * BitVec.ofNat 32 2000 = _
  rw [← BitVec.ofNat_mul, ← BitVec.ofNat_add, Nat.add_comm]

/-- The comparison's answer, widened and converted: 1 where the two words are equal, else 0. -/
theorem oneHot_entry (a b : BitVec 32) :
    FloatOps.sitofp (F := Ideal) .f32 ((IntOp.cmpi .eq a b).setWidth 32) = if b = a then (1 : EReal) else 0 := by
  show ((((IntOp.cmpi .eq a b).setWidth 32).toInt : ℝ) : EReal) = _
  unfold IntOp.cmpi
  by_cases h : b = a
  · subst h
    rw [if_pos rfl]
    simp
  · rw [if_neg h]
    have h' : (a == b) = false := by
      rw [beq_eq_false_iff_ne]; exact fun e => h e.symm
    simp [h']

/-- An index word read signed is the row number `r` (below 2^31) exactly when it is `r`'s word. -/
theorem toInt_eq_iff (w : BitVec 32) (r : ℕ) (hr : r < 2147483648) :
    w.toInt = (r : ℤ) ↔ w = BitVec.ofNat 32 r := by
  constructor
  · intro h
    apply BitVec.eq_of_toNat_eq
    rw [BitVec.toNat_ofNat]
    have := BitVec.toInt_eq_toNat_cond w
    have hw := w.isLt
    split at this <;> omega
  · rintro rfl
    rw [BitVec.toInt_eq_toNat_of_lt (by rw [BitVec.toNat_ofNat]; omega), BitVec.toNat_ofNat]
    congr 1
    omega

/-- A non-negative index word (its sign test against 0 fails) is kept by the reference's wrap-around select. -/
theorem select_wrap_of_nonneg (w : BitVec 32) (h : ¬ w.slt 0#32 = true) :
    Scalar.select (IntOp.cmpi .slt w 0#32) (IntOp.addi w 100000#32) w = w := by
  unfold IntOp.cmpi Scalar.select
  simp only [Bool.not_eq_true] at h
  rw [h]
  simp

/-- A column `[a, 1]` broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row of 0/1 routing entries times a column: the column's entries where the routing entry is 1. -/
theorem sum_route_mul {K : ℕ} (w : Fin K → BitVec 32) (r : BitVec 32) (x : Fin K → EReal) :
    ∑ k : Fin K, (if w k = r then (1 : EReal) else 0) * x k = ∑ k : Fin K, if w k = r then x k else 0 := by
  refine Finset.sum_congr rfl fun k _ => ?_
  split
  · rw [one_mul]
  · rw [zero_mul]

end Cert.ScatterAdd

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.KernelPayload.lean ====
/-
  What the kernel's body stores, read at an entry.

  At every grid point the body adds to the accumulator's entry (p, q) the product of a 0/1 routing matrix with the
  point's block of update rows: the sum over the block's 2048 rows k of [index word of row k = number of output row p]
  times the row's entry in column q — that is, the sum of the block's rows whose index names output row p. (The change of
  float format before the product is the identity on the extended reals.) At the first point of a row block the
  accumulator is first set to the table's block.
-/
import proofs.«411874_j15642270892742_1_alg».proof.Proof.Gen.KernelIdeal.Skeleton
import proofs.«411874_j15642270892742_1_alg».proof.Proof.OneHot
import proofs.«411874_j15642270892742_1_alg».proof.Proof.LibMatmul
import Idealize.ShloMosaic.Lib.ValueLayout
import Idealize.ShloMosaic.Lib.Pipeline.Value

noncomputable section

open scoped BigOperators

namespace Cert.ScatterAdd.Body

open Idealize.ShloMosaic Idealize.ShloMosaic.ValueIdx Cert.KernelIdeal Cert.KernelIdeal.Gen Cert.ScatterAdd

theorem cmpi_apply {s : Shape} {w : ℕ} (pr : CmpIPredicate) (x y : IVec s w) (i : s.Idx) :
    cmpi pr x y i = IntOp.cmpi pr (x i) (y i) := rfl

theorem addi_apply {s : Shape} {w : ℕ} (x y : IVec s w) (i : s.Idx) : addi x y i = IntOp.addi (x i) (y i) := rfl

/-- The row counter of a column `[a, 1]`, at row `p`: the word of `p`. -/
theorem iota_col {a : ℕ} (h : (⟨2, ![a, 1]⟩ : Shape).Iotas .tc 32 [0]) (p : Fin a) :
    iota .tc (⟨2, ![a, 1]⟩ : Shape) 32 [0] h (ix2 p (0 : Fin 1)) = BitVec.ofNat 32 p.val := by
  show BitVec.ofNat 32 (0 * a + p.val) = _
  rw [Nat.zero_mul, Nat.zero_add]

/-- The reset stores the table's block unchanged. -/
theorem pay1_eq {F : FTy → Type} [FloatOps F] (x : Vec F S2000x128 .f32) : k0_pay1 x = x := by
  unfold k0_pay1
  exact shapeCast_self _ _

/-- THE ACCUMULATION STEP AT AN ENTRY: the accumulator's entry plus the block's rows whose index word is the number
    of the output row. -/
theorem pay2_apply (i : grid0.Coords) (w : Vec Ideal S2048 .i32) (x : Vec Ideal S2048x128 .f32)
    (acc : Vec Ideal S2000x128 .f32) (p : Fin 2000) (q : Fin 128) :
    k0_pay2 (F := Ideal) i w x acc (ix2 p q)
      = acc (ix2 p q) + ∑ k : Fin 2048,
          if w (ix1 k) = BitVec.ofNat 32 ((i 0).val * 2000 + p.val) then x (ix2 k q) else 0 := by
  have hd : dot_S2000x2048_S2048x128_S2000x128_1_0_0_1_n_n = DotDims.plain 2000 2048 128 := rfl
  unfold k0_pay2
  dsimp only
  rw [shapeCast_self, addf_apply, hd]
  refine congrArg (acc (ix2 p q) + ·) ?_
  refine (Cert.Matmul.matmul_plain_apply none _ _ p q).trans ?_
  refine Finset.sum_congr rfl fun k _ => ?_
  rw [truncf_apply, truncf_apply, sitofp_apply, extui_apply, cmpi_apply, shapeCast_self,
    broadcastTo_a1_ab_apply, broadcastTo_1b_ab_apply, shapeCast_a_1a_apply, shapeCast_self, addi_apply, iota_col,
    broadcast_apply, rowWord, oneHot_entry]
  by_cases h : w (ix1 k) = BitVec.ofNat 32 ((i 0).val * 2000 + p.val)
  · rw [if_pos h, if_pos h, one_mul]
  · rw [if_neg h, if_neg h, zero_mul]

end Cert.ScatterAdd.Body

end
-- ==== Proof.ScatterSpec.lean ====
/-
  The scatter-add as ONE function of the three argument arrays, and the regroupings of its sum.

  Row r, column q of the result is the table's entry A(r, q) plus the sum, over the million update rows e, of
  B(e, q) where the index word of row e is r (and of nothing where it is not). Addition on the extended reals is
  commutative and associative, so the order in which the colliding rows are added does not matter; the laws below
  regroup a sum over 0 ≤ e < a·b into a blocks of b consecutive terms, and drop a tail of zero terms.
-/
import Idealize.ShloMosaic.PureOps.Ideal
import Idealize.ShloMosaic.Lib.ValueIdx
import Mathlib.Algebra.BigOperators.Fin
import Mathlib.Logic.Equiv.Fin.Basic

noncomputable section

open scoped BigOperators

namespace Cert.ScatterAdd

open Idealize.ShloMosaic Idealize.ShloMosaic.ValueIdx

/-- The index vector's shape: one word per update row. -/
abbrev SIdx : Shape := ⟨1, ![1000000]⟩
/-- The table's shape. -/
abbrev STab : Shape := ⟨2, ![100000, 128]⟩
/-- The updates' shape. -/
abbrev SUpd : Shape := ⟨2, ![1000000, 128]⟩

/-- What update row `e` contributes to table row `r`, column `q`: its entry when its index word is `r`, else nothing. -/
def contrib (idx : SIdx.Idx → BitVec 32) (B : SUpd.Idx → EReal) (r : ℕ) (q : Fin 128) (e : Fin 1000000) : EReal :=
  if idx (ix1 e) = BitVec.ofNat 32 r then B (ix2 e q) else 0

/-- THE RESULT: each table entry plus the update rows whose index names its row. -/
def scatterSum (idx : SIdx.Idx → BitVec 32) (A : STab.Idx → EReal) (B : SUpd.Idx → EReal) : STab.Idx → EReal :=
  fun i => A i + ∑ e : Fin 1000000, contrib idx B (i 0).val (i 1) e

/-- A sum over `0 ≤ e < a·b` is the sum over `a` blocks of `b` consecutive terms. -/
theorem sum_blocks {M : Type*} [AddCommMonoid M] (a b N : ℕ) (hN : N = a * b) (f : ℕ → M) :
    ∑ e : Fin N, f e.val = ∑ j : Fin a, ∑ k : Fin b, f (j.val * b + k.val) := by
  subst hN
  rw [← (finProdFinEquiv (m := a) (n := b)).sum_comp (fun e => f e.val), Fintype.sum_prod_type]
  refine Finset.sum_congr rfl fun j _ => Finset.sum_congr rfl fun k _ => ?_
  refine congrArg f ?_
  show k.val + b * j.val = j.val * b + k.val
  rw [Nat.mul_comm, Nat.add_comm]

/-- A sum whose terms vanish from `n` on is the sum of its first `n` terms. -/
theorem sum_drop_tail {M : Type*} [AddCommMonoid M] (n p N : ℕ) (hN : N = n + p) (g : ℕ → M)
    (hz : ∀ e, n ≤ e → g e = 0) :
    ∑ e : Fin N, g e.val = ∑ e : Fin n, g e.val := by
  subst hN
  rw [Fin.sum_univ_add]
  simp only [Fin.coe_castAdd, Fin.coe_natAdd]
  rw [Finset.sum_eq_zero (fun i _ => hz _ (Nat.le_add_right _ _)), add_zero]

/-! ## The kernel's arrangement of the sum: 489 blocks of 2048 rows over arrays padded to 1001472 rows -/

/-- The padded index vector's shape, -/
abbrev SIdxP : Shape := ⟨1, ![1001472]⟩
/-- and the padded updates'. -/
abbrev SUpdP : Shape := ⟨2, ![1001472, 128]⟩

/-- Row `e`'s contribution over the padded arrays, as a function of a natural number (nothing past the end). -/
def padTerm (idxP : SIdxP.Idx → BitVec 32) (BP : SUpdP.Idx → EReal) (r : ℕ) (q : Fin 128) (e : ℕ) : EReal :=
  if h : e < 1001472 then (if idxP (ix1 ⟨e, h⟩) = BitVec.ofNat 32 r then BP (ix2 ⟨e, h⟩ q) else 0) else 0

/-- The contributions of the first `J` blocks of 2048 rows. -/
def blockSum (idxP : SIdxP.Idx → BitVec 32) (BP : SUpdP.Idx → EReal) (r : ℕ) (q : Fin 128) (J : ℕ) : EReal :=
  ∑ j ∈ Finset.range J, ∑ k : Fin 2048, padTerm idxP BP r q (j * 2048 + k.val)

theorem blockSum_succ (idxP : SIdxP.Idx → BitVec 32) (BP : SUpdP.Idx → EReal) (r : ℕ) (q : Fin 128) (J : ℕ) :
    blockSum idxP BP r q (J + 1)
      = blockSum idxP BP r q J + ∑ k : Fin 2048, padTerm idxP BP r q (J * 2048 + k.val) :=
  Finset.sum_range_succ _ _

theorem blockSum_one (idxP : SIdxP.Idx → BitVec 32) (BP : SUpdP.Idx → EReal) (r : ℕ) (q : Fin 128) :
    blockSum idxP BP r q 1 = ∑ k : Fin 2048, padTerm idxP BP r q (0 * 2048 + k.val) := by
  unfold blockSum
  rw [Finset.sum_range_one]

/-- ALL 489 BLOCKS TOGETHER are the specification's sum: the padded arrays agree with the arguments on the first
    million rows, and a padding row adds 0 wherever its index word points (its entries are 0). -/
theorem blockSum_all (idx : SIdx.Idx → BitVec 32) (B : SUpd.Idx → EReal) (idxP : SIdxP.Idx → BitVec 32)
    (BP : SUpdP.Idx → EReal)
    (hi : ∀ (e : ℕ) (h : e < 1000000), idxP (ix1 ⟨e, by omega⟩) = idx (ix1 ⟨e, h⟩))
    (hb : ∀ (e : ℕ) (h : e < 1000000) (q : Fin 128), BP (ix2 ⟨e, by omega⟩ q) = B (ix2 ⟨e, h⟩ q))
    (hbz : ∀ (e : ℕ) (h : e < 1001472) (q : Fin 128), 1000000 ≤ e → BP (ix2 ⟨e, h⟩ q) = 0)
    (r : ℕ) (q : Fin 128) :
    blockSum idxP BP r q 489 = ∑ e : Fin 1000000, contrib idx B r q e := by
  unfold blockSum
  rw [Finset.sum_range (fun j => ∑ k : Fin 2048, padTerm idxP BP r q (j * 2048 + k.val)),
    ← sum_blocks 489 2048 1001472 (by norm_num) (padTerm idxP BP r q),
    sum_drop_tail 1000000 1472 1001472 (by norm_num) (padTerm idxP BP r q) (fun e he => by
      unfold padTerm
      split
      · rename_i h; rw [hbz e h q he]; split <;> rfl
      · rfl)]
  refine Finset.sum_congr rfl fun e _ => ?_
  unfold padTerm contrib
  rw [dif_pos (by have := e.isLt; omega), hi e.val e.isLt, hb e.val e.isLt q]

end Cert.ScatterAdd

end
-- ==== Proof.KernelAccum.lean ====
/-
  The accumulator, point by point, and the output array.

  After the point of row block n and update block j, entry (p, q) of the accumulator is the table's entry of row
  n·2000 + p plus the contributions of the update blocks 0 … j to that row: by induction on the point — the first
  point of a row block starts from the table's block, every later point adds its block to what the point before left.
  After the last update block (j = 488) all 489 blocks are in, which is the specification's sum; that point stores the
  accumulator as block n of the output, and these 50 blocks tile the output array.
-/
import proofs.«411874_j15642270892742_1_alg».proof.Proof.KernelPieces
import proofs.«411874_j15642270892742_1_alg».proof.Proof.KernelBlocks
import proofs.«411874_j15642270892742_1_alg».proof.Proof.KernelPayload
import proofs.«411874_j15642270892742_1_alg».proof.Proof.ScatterSpec
import Idealize.ShloMosaic.PureOps.Ideal.Laws

noncomputable section

open scoped BigOperators

namespace Cert.ScatterAdd.Accum

open Idealize.ShloMosaic Idealize.ShloMosaic.TcCoe Idealize.SL.Sem Idealize.ShloMosaic.ValueIdx
open Cert.KernelIdeal Cert.KernelIdeal.Gen Cert.ScatterAdd Cert.ScatterAdd.Blocks Cert.ScatterAdd.Pieces Cert.ScatterAdd.Body

variable (m : (ℓ : Loc nD τ sig) → Buf (Elt Ideal) ℓ)

/-- The table's entry of row `r`, as a function of a natural number (nothing past the end). -/
def tabAt (c : Dev nD) (r : ℕ) (q : Fin 128) : EReal :=
  if h : r < 100000 then tabArr m c (ix2 ⟨r, h⟩ q) else 0

/-- ONE STEP: the body at point `t` adds update block `t mod 489`'s contributions to row `(t / 489)·2000 + p`. -/
theorem step_eq (c : Dev nD) (t : Fin cfg0.N) (acc : Vec Ideal S2000x128 .f32) (p : Fin 2000) (q : Fin 128) :
    k0_pay2 (F := Ideal) (grid0.coords t) (idxBlk m c t) (updBlk m c t) acc (ix2 p q)
      = acc (ix2 p q) + ∑ k : Fin 2048,
          padTerm (idxArr m c) (updArr m c) (t.val / 489 * 2000 + p.val) q (t.val % 489 * 2048 + k.val) := by
  have hN : t.val < 24450 := lt_of_lt_of_eq t.isLt (show cfg0.N = 24450 from N_0)
  obtain ⟨-, -, -, -, -, -, -, ec⟩ := idx_facts t
  rw [pay2_apply, ec]
  refine congrArg (acc (ix2 p q) + ·) (Finset.sum_congr rfl fun k _ => ?_)
  have hk : t.val % 489 * 2048 + k.val < 1001472 := by have := k.isLt; omega
  unfold padTerm
  rw [dif_pos hk, idxBlk_apply m c t k hk, updBlk_apply m c t k q hk]

theorem blockSum_zero (idxP : SIdxP.Idx → BitVec 32) (BP : SUpdP.Idx → EReal) (r : ℕ) (q : Fin 128) :
    blockSum idxP BP r q 0 = 0 := by
  unfold blockSum
  exact Finset.sum_range_zero _

/-- What the accumulator should hold after point `n`: the table's row plus the update blocks `0 … n mod 489`. -/
def accSpec (c : Dev nD) (n : ℕ) (p : Fin 2000) (q : Fin 128) : EReal :=
  tabAt m c (n / 489 * 2000 + p.val) q
    + blockSum (idxArr m c) (updArr m c) (n / 489 * 2000 + p.val) q (n % 489 + 1)

/-- The first point of a row block: the table's block and update block 0. -/
theorem acc_first (c : Dev nD) (t : Fin cfg0.N) (h0 : t.val % 489 = 0) (p : Fin 2000) (q : Fin 128) :
    (outsAt0 m c t.val t.isLt).2 (ix2 p q) = accSpec m c t.val p q := by
  have hN : t.val < 24450 := lt_of_lt_of_eq t.isLt (show cfg0.N = 24450 from N_0)
  have hp : t.val / 489 * 2000 + p.val < 100000 := by have := p.isLt; omega
  have h1 : ¬t.val % 489 = 488 := by omega
  refine (congrFun (accAt_A m c t h0 h1) (ix2 p q)).trans ?_
  refine (step_eq m c t (k0_pay1 (tabBlk m c t)) p q).trans ?_
  unfold accSpec
  rw [pay1_eq, tabBlk_apply m c t p q hp, h0, blockSum_succ, blockSum_zero, zero_add]
  unfold tabAt
  rw [dif_pos hp]

/-- A later point: one more update block over what the point before left. -/
theorem acc_next (c : Dev nD) (t : Fin cfg0.N) (h0 : ¬t.val % 489 = 0)
    (ih : ∀ (p : Fin 2000) (q : Fin 128),
      (outsAt0 m c (t.val - 1) (Nat.lt_of_le_of_lt (Nat.sub_le _ _) t.isLt)).2 (ix2 p q) = accSpec m c (t.val - 1) p q)
    (p : Fin 2000) (q : Fin 128) :
    (outsAt0 m c t.val t.isLt).2 (ix2 p q) = accSpec m c t.val p q := by
  have hN : t.val < 24450 := lt_of_lt_of_eq t.isLt (show cfg0.N = 24450 from N_0)
  have hd : t.val / 489 = (t.val - 1) / 489 := by omega
  have hm : t.val % 489 = (t.val - 1) % 489 + 1 := by omega
  have e : (outsAt0 m c t.val t.isLt).2 (ix2 p q)
      = k0_pay2 (F := Ideal) (grid0.coords t) (idxBlk m c t) (updBlk m c t)
          (outsAt0 m c (t.val - 1) (Nat.lt_of_le_of_lt (Nat.sub_le _ _) t.isLt)).2 (ix2 p q) := by
    by_cases h1 : t.val % 489 = 488
    · exact congrFun (accAt_C m c t h0 h1) (ix2 p q)
    · exact congrFun (accAt_B m c t h0 h1) (ix2 p q)
  refine e.trans ?_
  refine (step_eq m c t _ p q).trans ?_
  rw [ih p q]
  unfold accSpec
  rw [hd, hm, blockSum_succ _ _ _ _ ((t.val - 1) % 489 + 1), add_assoc]

/-- THE ACCUMULATOR AFTER EACH POINT, by induction on the point. -/
theorem acc_eq (c : Dev nD) : ∀ (n : ℕ) (h : n < cfg0.N) (p : Fin 2000) (q : Fin 128),
    (outsAt0 m c n h).2 (ix2 p q) = accSpec m c n p q
  | 0, h, p, q => acc_first m c ⟨0, h⟩ rfl p q
  | n + 1, h, p, q => by
    by_cases h0 : (n + 1) % 489 = 0
    · exact acc_first m c ⟨n + 1, h⟩ h0 p q
    · exact acc_next m c ⟨n + 1, h⟩ h0 (fun p q => acc_eq c n (Nat.lt_of_succ_lt h) p q) p q

/-- The padding rows of the updates are 0. -/
theorem updArr_pad (c : Dev nD) (e : ℕ) (h : e < 1001472) (q : Fin 128) (he : 1000000 ≤ e) :
    updArr m c (ix2 ⟨e, h⟩ q) = 0 := by
  rw [updArr_eq]
  refine (pad_apply_of_not_inside _ _ _ _ _ _ _ (ix2 ⟨e, h⟩ q) 0 ?_).trans ?_
  · rintro ⟨-, -, h3⟩
    have h3' : (e - 0) / (0 + 1) < 1000000 := h3
    omega
  · exact Ideal.ofBits_zero_f32

/-- AFTER THE LAST UPDATE BLOCK the accumulator holds the specification's rows of its row block. -/
theorem acc_last (c : Dev nD) (t : Fin cfg0.N) (h1 : t.val % 489 = 488) (p : Fin 2000) (q : Fin 128)
    (hp : t.val / 489 * 2000 + p.val < 100000) :
    (outsAt0 m c t.val t.isLt).2 (ix2 p q)
      = scatterSum (m ((c : Thread nD τ).loc main_arg0)) (m ((c : Thread nD τ).loc main_arg1))
          (m ((c : Thread nD τ).loc main_arg2)) (ix2 ⟨t.val / 489 * 2000 + p.val, hp⟩ q) := by
  rw [acc_eq m c t.val t.isLt p q]
  unfold accSpec
  rw [h1]
  unfold scatterSum tabAt
  rw [dif_pos hp]
  have e1 : tabArr m c (ix2 ⟨t.val / 489 * 2000 + p.val, hp⟩ q)
      = m ((c : Thread nD τ).loc main_arg1) (ix2 ⟨t.val / 489 * 2000 + p.val, hp⟩ q) :=
    congrFun (tabArr_eq m c) _
  have e2 := blockSum_all (m ((c : Thread nD τ).loc main_arg0)) (m ((c : Thread nD τ).loc main_arg2))
    (idxArr m c) (updArr m c) (fun e h => idxArr_inside m c e h) (fun e h q => updArr_inside m c e h q)
    (fun e h q he => updArr_pad m c e h q he) (t.val / 489 * 2000 + p.val) q
  exact congrArg₂ (fun a b : EReal => a + b) e1 e2

end Cert.ScatterAdd.Accum

end
-- ==== Proof.KernelValue.lean ====
/-
  The kernel's output array is the specification's function of the arguments.

  The only points that write an output block back are the last update block's (t mod 489 = 488), one per row block; what
  such a point writes is its accumulator, which by then holds the specification's rows n·2000 … n·2000 + 1999. The
  50 row blocks tile the 100000 rows, so every entry of the output array is written, with the specification's value.
-/
import proofs.«411874_j15642270892742_1_alg».proof.Proof.KernelAccum
import proofs.«411874_j15642270892742_1_alg».proof.Proof.Gen.KernelIdeal.Value

noncomputable section

namespace Cert.ScatterAdd.KValue

open Idealize.ShloMosaic Idealize.ShloMosaic.TcCoe Idealize.SL.Sem Idealize.ShloMosaic.ValueIdx
open Idealize.ShloMosaic.Pipeline (Dat)
open Cert.KernelIdeal Cert.KernelIdeal.Gen Cert.ScatterAdd Cert.ScatterAdd.Blocks Cert.ScatterAdd.Pieces Cert.ScatterAdd.Accum

variable (m : (ℓ : Loc nD τ sig) → Buf (Elt Ideal) ℓ) (ρ : Dev nD → PrngReg)

/-- The specification at the launch contents of the three arguments. -/
abbrev result (c : Dev nD) : S100000x128.Idx → EReal :=
  scatterSum (m ((c : Thread nD τ).loc main_arg0)) (m ((c : Thread nD τ).loc main_arg1)) (m ((c : Thread nD τ).loc main_arg2))

/-- WHAT A WRITING POINT WRITES BACK is its block of the specification. -/
theorem flushed_eq (c : Dev nD) (t : Fin cfg0.N) (hf : (cfg0.win 3).flush t = true) :
    (dats m 0 c).flushed 3 t = ((cfg0.win 3).blk t).view.read (Elt Ideal) (result m c) := by
  have hN : t.val < 24450 := lt_of_lt_of_eq t.isLt (show cfg0.N = 24450 from N_0)
  have h1 : t.val % 489 = 488 := (flush0_3 t).mp hf
  have h0 : ¬t.val % 489 = 0 := by omega
  obtain ⟨-, -, -, -, -, e0, e1, -⟩ := idx_facts t
  rw [Cert.KernelIdeal.Value.flushed3, outAt_C m c t h0 h1]
  funext y
  have hy0 : (y 0).val < 2000 := (y 0).isLt
  have hy1 : (y 1).val < 128 := (y 1).isLt
  have hp : t.val / 489 * 2000 + (y 0).val < 100000 := by omega
  have e := acc_last m c t h1 ⟨(y 0).val, hy0⟩ ⟨(y 1).val, hy1⟩ hp
  show (outsAt0 m c t.val t.isLt).2 y = result m c (((cfg0.win 3).blk t).view.emb y)
  have ey : y = ix2 ⟨(y 0).val, hy0⟩ ⟨(y 1).val, hy1⟩ := funext fun a => match a with
    | ⟨0, _⟩ => rfl
    | ⟨1, _⟩ => rfl
  refine (congrArg (outsAt0 m c t.val t.isLt).2 ey).trans (e.trans (congrArg (result m c) ?_))
  funext a
  apply Fin.ext
  match a with
  | ⟨0, _⟩ =>
    show t.val / 489 * 2000 + (y 0).val = win0_3.index t (0 : Fin 2) * 2000 + 1 * (y 0).val
    rw [e0]; omega
  | ⟨1, _⟩ =>
    show (y 1).val = win0_3.index t (1 : Fin 2) * 128 + 1 * (y 1).val
    rw [e1]; omega

/-- An entry of the output array is in point `t`'s block iff each coordinate is in the block's range on its axis. -/
theorem mem_blk (t : Fin cfg0.N) (i : S100000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v2).slice (win0_3.rect t)).set ↔ _
  rw [View.set_slice_whole, Rect.mem_set_unit]
  exact Iff.rfl

/-- EVERY ENTRY IS WRITTEN: row `r` lies in row block `r / 2000`, written back at that block's last point. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hb : (i 0).val / 2000 * 489 + 488 < cfg0.N := by
    have hN : cfg0.N = 24450 := N_0
    rw [hN]; omega
  refine ⟨⟨(i 0).val / 2000 * 489 + 488, hb⟩, ?_, ?_⟩
  · exact (flush0_3 _).mpr (by show ((i 0).val / 2000 * 489 + 488) % 489 = 488; omega)
  · rw [mem_blk]
    obtain ⟨-, -, -, -, -, e0, e1, -⟩ := idx_facts ⟨(i 0).val / 2000 * 489 + 488, hb⟩
    have e0' : win0_3.index ⟨(i 0).val / 2000 * 489 + 488, hb⟩ (0 : Fin 2) = (i 0).val / 2000 := by
      rw [e0]; show ((i 0).val / 2000 * 489 + 488) / 489 = (i 0).val / 2000; omega
    intro a
    match a with
    | ⟨0, _⟩ =>
      show win0_3.index _ (0 : Fin 2) * 2000 ≤ (i 0).val ∧ (i 0).val < win0_3.index _ (0 : Fin 2) * 2000 + 2000
      rw [e0']; omega
    | ⟨1, _⟩ =>
      show win0_3.index _ (1 : Fin 2) * 128 ≤ (i 1).val ∧ (i 1).val < win0_3.index _ (1 : Fin 2) * 128 + 128
      rw [e1]; omega

/-- THE OUTPUT ARRAY after the run. -/
theorem final (c : Dev nD) : (dats m 0 c).arrAt 3 cfg0.N = result m c :=
  (dats m 0 c).arrAt_eq_of_cover 3 (result m c) (fun t hf => flushed_eq m c t hf) cover

/-- The kernel's run, read: the result array at the specification, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.ScatterAdd.KValue

end
-- ==== Proof.ScatterIndex.lean ====
/-
  Where an update row lands: the result index of the reference's scatter.

  The scatter's dimension numbers send update entry (e, q) to table entry (start, q), where start is the index word of
  row e read as a signed integer; an entry whose start is not a row of the table is dropped. So the scatter-add, read
  at table entry (r, q), is the entry plus the sum of the update rows e whose signed index is r.
-/
import Idealize.ShloMosaic.PureOps.Ideal
import Idealize.ShloMosaic.Lib.ValueIdx
import proofs.«411874_j15642270892742_1_alg».proof.Proof.ScatterSpec

noncomputable section

open scoped BigOperators

namespace Cert.ScatterAdd

open Idealize.ShloMosaic Idealize.ShloMosaic.ValueIdx

/-- The scatter indices' shape: one index vector of length one per update row. -/
abbrev SIdxCol : Shape := ⟨2, ![1000000, 1]⟩

/-- The scatter's dimension numbers: the update's column axis is the window axis, the table's row axis is the
    scattered one. -/
def dims (wf : ScatterDims.WF STab SIdxCol SUpd [1] [0] [0] 1) : ScatterDims STab SIdxCol SUpd where
  updateWindowDims := [1]
  insertedWindowDims := [0]
  scatterDimsToOperandDims := [0]
  indexVectorDim := 1
  wf := wf

variable (wf : ScatterDims.WF STab SIdxCol SUpd [1] [0] [0] 1)

/-- On the table's row axis the window of update entry `(e, q)` starts at row `e`'s index word, read signed. -/
theorem start_row (e : Fin 1000000) (q : Fin 128) (idx : IVec SIdxCol 32) :
    (dims wf).start (ix2 e q) idx 0 = (idx (ix2 e 0)).toInt := by
  unfold ScatterDims.start
  rw [dif_pos (show (0 : Fin STab.rank) ∈ (dims wf).scatterDimsToOperandDims from List.mem_singleton.2 rfl)]
  refine congrArg (fun x => (idx x).toInt) ?_
  funext b
  match b with
  | ⟨0, _⟩ => exact Fin.ext rfl
  | ⟨1, _⟩ => exact Fin.ext rfl

/-- On the column axis it starts at 0: -/
theorem start_col (e : Fin 1000000) (q : Fin 128) (idx : IVec SIdxCol 32) : (dims wf).start (ix2 e q) idx 1 = 0 := by
  unfold ScatterDims.start
  rw [dif_neg (show ¬ (1 : Fin STab.rank) ∈ (dims wf).scatterDimsToOperandDims from
    fun h => absurd (List.mem_singleton.1 h) (by decide))]

/-- the row axis is inserted (no window coordinate), -/
theorem window_row (e : Fin 1000000) (q : Fin 128) : (dims wf).window (ix2 e q) 0 = 0 := by
  unfold ScatterDims.window
  rw [dif_neg (show ¬ (0 : Fin STab.rank) ∈ (dims wf).sKept from
    (by decide : (0 : Fin STab.rank) ∉ STab.kept [(0 : Fin STab.rank)]))]

/-- and the column axis carries the update's column. -/
theorem window_col (e : Fin 1000000) (q : Fin 128) : (dims wf).window (ix2 e q) 1 = q.val := by
  unfold ScatterDims.window
  rw [dif_pos (show (1 : Fin STab.rank) ∈ (dims wf).sKept from
    (by decide : (1 : Fin STab.rank) ∈ STab.kept [(0 : Fin STab.rank)]))]
  rfl

/-- Update entry `(e, q')` lands on table entry `(r, q)` exactly when row `e`'s index word, read signed, is `r` and
    the columns agree; an index word that is no row of the table lands nowhere. -/
theorem resultIdx_eq_some (e : Fin 1000000) (q' : Fin 128) (idx : IVec SIdxCol 32) (r : Fin 100000) (q : Fin 128) :
    (dims wf).resultIdx? (ix2 e q') idx = some (ix2 r q) ↔ (idx (ix2 e 0)).toInt = (r.val : ℤ) ∧ q' = q := by
  unfold ScatterDims.resultIdx?
  split
  · rename_i h
    rw [Option.some.injEq]
    constructor
    · intro hi
      have h0 := congrArg (fun f : STab.Idx => (f 0).val) hi
      have h1 := congrArg (fun f : STab.Idx => (f 1).val) hi
      have hh0 := (h 0).1
      have hh1 := (h 1).1
      simp only [] at h0 h1
      change ((dims wf).start (ix2 e q') idx 0 + (dims wf).window (ix2 e q') 0).toNat = r.val at h0
      change ((dims wf).start (ix2 e q') idx 1 + (dims wf).window (ix2 e q') 1).toNat = q.val at h1
      rw [start_row, window_row] at h0 hh0
      rw [start_col, window_col] at h1
      exact ⟨by omega, Fin.ext (by omega)⟩
    · rintro ⟨hr, hq⟩
      funext a
      refine Fin.ext ?_
      match a with
      | ⟨0, _⟩ =>
        show ((dims wf).start (ix2 e q') idx 0 + (dims wf).window (ix2 e q') 0).toNat = r.val
        rw [start_row, window_row, hr]; omega
      | ⟨1, _⟩ =>
        show ((dims wf).start (ix2 e q') idx 1 + (dims wf).window (ix2 e q') 1).toNat = q.val
        rw [start_col, window_col, hq]; omega
  · rename_i h
    constructor
    · intro hh; exact absurd hh (by simp)
    · rintro ⟨hr, hq⟩
      exfalso
      apply h
      intro a
      match a with
      | ⟨0, _⟩ =>
        show 0 ≤ (dims wf).start (ix2 e q') idx 0 + (dims wf).window (ix2 e q') 0
          ∧ (dims wf).start (ix2 e q') idx 0 + (dims wf).window (ix2 e q') 0 < (100000 : ℕ)
        rw [start_row, window_row, hr]
        have := r.isLt
        omega
      | ⟨1, _⟩ =>
        show 0 ≤ (dims wf).start (ix2 e q') idx 1 + (dims wf).window (ix2 e q') 1
          ∧ (dims wf).start (ix2 e q') idx 1 + (dims wf).window (ix2 e q') 1 < (128 : ℕ)
        rw [start_col, window_col]
        have := q'.isLt
        omega

/-- THE REFERENCE'S SCATTER READ AT AN ENTRY: the table's entry plus, over the update rows, the row's entry in that
    column where the row's index word, read signed, is the entry's row. -/
theorem hostScatterAdd_apply (x : STab.Idx → EReal) (idx : IVec SIdxCol 32) (upd : SUpd.Idx → EReal)
    (r : Fin 100000) (q : Fin 128) :
    Ideal.hostScatterAdd (dims wf) x idx upd (ix2 r q)
      = x (ix2 r q) + ∑ e : Fin 1000000, if (idx (ix2 e 0)).toInt = (r.val : ℤ) then upd (ix2 e q) else 0 := by
  unfold Ideal.hostScatterAdd
  refine congrArg (x (ix2 r q) + ·) ?_
  rw [Finset.sum_filter, sum_idx2]
  refine Finset.sum_congr rfl fun e _ => ?_
  by_cases hr : (idx (ix2 e 0)).toInt = (r.val : ℤ)
  · rw [if_pos hr, Finset.sum_eq_single q]
    · exact if_pos ((resultIdx_eq_some wf e q idx r q).2 ⟨hr, rfl⟩)
    · intro b _ hb; exact if_neg (fun h => hb ((resultIdx_eq_some wf e b idx r q).1 h).2)
    · intro h; exact absurd (Finset.mem_univ _) h
  · rw [if_neg hr]
    exact Finset.sum_eq_zero fun b _ => if_neg (fun h => hr ((resultIdx_eq_some wf e b idx r q).1 h).1)

end Cert.ScatterAdd

end
-- ==== Proof.RefValue.lean ====
/-
  The reference's result is the scatter-add's specification, where no index word is negative.

  The reference first replaces a negative index word w by w + 100000 (indexing from the end) and then scatters; a
  non-negative word is kept as it is. Its scatter adds update row e to the table row whose number is the row's index
  word read signed, and drops the row when that is no row of the table — which, for a row number below 100000, is to say
  the index word is that number's word.
-/
import proofs.«411874_j15642270892742_1_alg».proof.Proof.Gen.ReferenceIdeal.Read
import proofs.«411874_j15642270892742_1_alg».proof.Proof.ScatterIndex
import proofs.«411874_j15642270892742_1_alg».proof.Proof.OneHot

noncomputable section

open scoped BigOperators

namespace Cert.ScatterAdd.Ref

open Idealize.ShloMosaic Idealize.ShloMosaic.ValueIdx Cert.ReferenceIdeal Cert.ReferenceIdeal.Gen Cert.ScatterAdd

/-- The word the scatter reads for update row `e` is the row's own index word, when that is not negative. -/
theorem scatter_word (idx : IVec S1000000 32) (e : Fin 1000000) (h : 0 ≤ (idx (ix1 e)).toInt) :
    Read.val_main_v5 (F := Ideal) idx (ix2 e (0 : Fin 1)) = idx (ix1 e) := by
  rw [Read.val_main_v5_apply, Read.val_main_v4_apply, Read.val_main_v1_apply, Read.val_main_v3_apply,
    Read.val_main_v0_apply, Read.val_main_v2_apply, Read.val_main_c_apply, Read.val_main_c_0_apply]
  have hi : Read.idx_main_v5 (ix2 e (0 : Fin 1)) = ix1 e := funext fun a => match a with | ⟨0, _⟩ => rfl
  rw [hi]
  refine select_wrap_of_nonneg _ ?_
  rw [BitVec.slt_iff_toInt_lt]
  have h0 : (0#32 : BitVec 32).toInt = 0 := by decide
  omega

/-- THE REFERENCE'S RESULT, as the specification's function of the three arguments. -/
theorem result_eq (idx : IVec S1000000 32) (A : FVec Ideal S100000x128 .f32) (B : FVec Ideal S1000000x128 .f32)
    (hidx : ∀ e : Fin 1000000, 0 ≤ (idx (ix1 e)).toInt) :
    Read.val_main_v6 (F := Ideal) idx A B = scatterSum idx A B := by
  funext i
  obtain ⟨r, q, rfl⟩ : ∃ (r : Fin 100000) (q : Fin 128), i = ix2 r q := ⟨i 0, i 1, eq_ix2 i⟩
  unfold Read.val_main_v6
  show Ideal.hostScatterAdd (dims Facts₀.scatter_S100000x128_S1000000x1_S1000000x128_1_0_0_1_wf) A
    (Read.val_main_v5 (F := Ideal) idx) B (ix2 r q) = _
  rw [hostScatterAdd_apply]
  unfold scatterSum
  refine congrArg (A (ix2 r q) + ·) (Finset.sum_congr rfl fun e _ => ?_)
  unfold contrib
  rw [scatter_word idx e (hidx e)]
  exact if_congr (toInt_eq_iff _ _ (by have := r.isLt; omega)) rfl rfl

end Cert.ScatterAdd.Ref

end
-- ==== Proof.PreIndex.lean ====
/-
  What the precondition says of the index vector: every index word, read as a signed integer, is at least 0.

  The precondition is a conjunction of three reductions by "and"; its last conjunct reduces, over all update rows, the
  signed comparison of the row's index word with 0.
-/
import proofs.«411874_j15642270892742_1_alg».proof.Pre_finite_inputs
import Idealize.ShloMosaic.Lib.ReduceAll
import Idealize.ShloMosaic.Lib.ValueIdx

noncomputable section

namespace Cert.ScatterAdd

open Idealize.ShloMosaic Idealize.ShloMosaic.ValueIdx

/-- Under the precondition no index word is negative. -/
theorem index_nonneg_of_pre {F : FTy → Type} [FloatOps F] [Cert.Pre_finite_inputs.Facts]
    (idx : IVec Cert.Pre_finite_inputs.S1000000 32) (A : FVec F Cert.Pre_finite_inputs.S100000x128 .f32)
    (B : FVec F Cert.Pre_finite_inputs.S1000000x128 .f32)
    (h : Cert.Pre_finite_inputs.fn (F := F) idx A B = fun _ => 1#1) (e : Fin 1000000) :
    0 ≤ (idx (ix1 e)).toInt := by
  have h0 := congrFun h ix0
  dsimp only [Cert.Pre_finite_inputs.fn] at h0
  have h1 := (IntOp.andi_eq_one.1 h0).2
  haveI : Subsingleton Cert.Pre_finite_inputs.S_.Idx := ⟨fun a b => funext fun d => d.elim0⟩
  have h2 := Host.reduce_andi_all _ _ _ _ _ h1 (ix1 e)
  have h3 : (0#32 : BitVec 32).toInt ≤ (idx (ix1 e)).toInt := IntOp.cmpi_sge.1 h2
  have hz : (0#32 : BitVec 32).toInt = 0 := by decide
  omega

end Cert.ScatterAdd

end
-- ==== Proof.lean ====
/-
  The scatter-add kernel against jnp's A.at[index].add(B), over the extended reals.

  Both programs compute, at table entry (r, q), A(r, q) plus the sum of the update rows B(e, q) whose index word names
  row r (the specification: Proof/ScatterSpec.lean). The reference scatters row by row, after replacing a negative index
  by its distance from the table's end; under the precondition no index is negative, so that replacement changes
  nothing (Proof/RefValue.lean). The kernel pads the index vector and the updates to 489 blocks of 2048 rows (padding
  rows: index word 0, entries 0), and for each block of 2000 table rows accumulates, block by block, the product of a
  0/1 routing matrix [index word = row number] with the update block: the sum over the block's rows that name the output
  row. Adding the 489 blocks, dropping the padding rows' zero terms, and reading a routing entry times an update entry as
  the entry or nothing, is the same sum (Proof/KernelAccum.lean, Proof/KernelValue.lean). Only commutativity and
  associativity of + and 0·x = 0, 1·x = x on the extended reals are used, so finiteness of A and B is never opened.
-/
import proofs.«411874_j15642270892742_1_alg».proof.Defs
import proofs.«411874_j15642270892742_1_alg».proof.Proof.Gen.Kernel
import proofs.«411874_j15642270892742_1_alg».proof.Proof.Gen.Kernel.Skeleton
import proofs.«411874_j15642270892742_1_alg».proof.Proof.Gen.Kernel.Launch
import proofs.«411874_j15642270892742_1_alg».proof.Proof.Gen.Kernel.Points
import proofs.«411874_j15642270892742_1_alg».proof.Proof.Gen.Kernel.Frame
import proofs.«411874_j15642270892742_1_alg».proof.Proof.Gen.KernelIdeal
import proofs.«411874_j15642270892742_1_alg».proof.Proof.Gen.KernelIdeal.Skeleton
import proofs.«411874_j15642270892742_1_alg».proof.Proof.Gen.KernelIdeal.Launch
import proofs.«411874_j15642270892742_1_alg».proof.Proof.Gen.KernelIdeal.Points
import proofs.«411874_j15642270892742_1_alg».proof.Proof.Gen.KernelIdeal.Frame
import proofs.«411874_j15642270892742_1_alg».proof.Proof.Gen.ReferenceIdeal
import proofs.«411874_j15642270892742_1_alg».proof.Proof.Gen.Pre_finite_inputs
import proofs.«411874_j15642270892742_1_alg».proof.Proof.Gen.KernelIdeal.Value
import proofs.«411874_j15642270892742_1_alg».proof.Proof.Gen.ReferenceIdeal.Run
import proofs.«411874_j15642270892742_1_alg».proof.Proof.Gen.ReferenceIdeal.Read
import proofs.«411874_j15642270892742_1_alg».proof.Proof.KernelValue
import proofs.«411874_j15642270892742_1_alg».proof.Proof.RefValue
import proofs.«411874_j15642270892742_1_alg».proof.Proof.PreIndex
import Idealize.ShloMosaic.Adequacy
import Idealize.ShloMosaic.Init

noncomputable section

namespace Cert.Proof

open Idealize.ShloMosaic Idealize.ShloMosaic.TcCoe Idealize.SL.Sem Idealize.ShloMosaic.ValueIdx

/-- The two idealized programs end with the same result array: the specification's function of the arguments. -/
theorem algebraic : Cert.algebraic_KernelIdeal_ReferenceIdeal := by
  intro m ρ m' ρ' hpre hagree
  refine ⟨fun c => Cert.ScatterAdd.KValue.result m c, Cert.ScatterAdd.KValue.run m ρ, ?_⟩
  refine (θ_run Cert.ReferenceIdeal.defs _ _).mono (fun _ h c => ⟨?_, (h c).2⟩)
    (Cert.ReferenceIdeal.Value.run (F := Ideal) m' ρ')
  have hidx : ∀ e : Fin 1000000, 0 ≤ ((m' ((c.tc : Thread Cert.ReferenceIdeal.nD Cert.ReferenceIdeal.τ).loc Cert.ReferenceIdeal.main_arg0)) (ix1 e)).toInt := by
    intro e
    rw [(hagree c).1]
    exact Cert.ScatterAdd.index_nonneg_of_pre _ _ _ (hpre c) e
  rw [(h c).1, Cert.ReferenceIdeal.Read.val_main_v6_eq, Cert.ScatterAdd.Ref.result_eq _ _ _ hidx,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
